-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x1024 .f32) (main_arg2 : FVec F S1024 .f32) (main_arg3 : FVec F S4096x1024 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_v13 main_v16
-- ==== Kernel.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S8192x4096 : Shape := ⟨2, ![8192, 4096]⟩
abbrev S1024x4096 : Shape := ⟨2, ![1024, 4096]⟩
abbrev S1x1024 : Shape := ⟨2, ![1, 1024]⟩
abbrev S1x4096 : Shape := ⟨2, ![1, 4096]⟩
abbrev S256x4096 : Shape := ⟨2, ![256, 4096]⟩
abbrev S256x1024 : Shape := ⟨2, ![256, 1024]⟩

abbrev nBuf : Space → Nat
  | .hbm => 14
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .hbm, ⟨8, _⟩ => ⟨S1024x4096, .f32⟩
  | .hbm, ⟨9, _⟩ => ⟨S1024x4096, .bf16⟩
  | .hbm, ⟨10, _⟩ => ⟨S1x1024, .f32⟩
  | .hbm, ⟨11, _⟩ => ⟨S1x4096, .f32⟩
  | .hbm, ⟨12, _⟩ => ⟨S8192x4096, .f32⟩
  | .hbm, ⟨13, _⟩ => ⟨S4x2048x4096, .f32⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S1024x4096, .bf16⟩
  | .local _ .vmem, ⟨4, _⟩ => ⟨S1x1024, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x4096_S8192x4096 : S4x2048x4096.ShapeCasts S8192x4096
  bitsLt_bf16_f32 : FTy.bits .bf16 < FTy.bits .f32
  transposes_S4096x1024_S1024x4096_1_0 : S4096x1024.Transposes [1, 0] S1024x4096
  shapeCasts_S1024_S1x1024 : S1024.ShapeCasts S1x1024
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x4096_S4096x1024_S256x1024_1_0_0_1_n_n_wf : DotDims.WF S256x4096 S4096x1024 S256x1024 [1] [0] [0] [1] [] []
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .bf16 = 32 ∨ (Rect.block (s := S8192x4096) S256x4096.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S8192x4096.size a
  hwx0_5 : ∀ i : grid0.Coords, EltTy.bits .f32 = 32 ∨ (Rect.block (s := S8192x4096) S256x4096.size (cc0_transform_5 i) (hinb0_5 i)).WholeWords (EltTy.packing .f32)

variable [Facts₀]

def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x1024 : Shape := ⟨2, ![4096, 1024]⟩
abbrev S1024 : Shape := ⟨1, ![1024]⟩
abbrev S4096 : Shape := ⟨1, ![4096]⟩
abbrev S4x2048x1024 : Shape := ⟨3, ![4, 2048, 1024]⟩
abbrev S1x1x1024 : Shape := ⟨3, ![1, 1, 1024]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S4096, .f32⟩
  | .hbm, ⟨5, _⟩ => ⟨S4x2048x1024, .f32⟩
  | .hbm, ⟨6, _⟩ => ⟨S1x1x1024, .f32⟩
  | .hbm, ⟨7, _⟩ => ⟨S4x2048x1024, .f32⟩
  | .hbm, ⟨8, _⟩ => ⟨S4x2048x1024, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x1024_S4x2048x1024_2_0_01_1_n_n_wf : DotDims.WF S4x2048x4096 S4096x1024 S4x2048x1024 [2] [0] [0, 1] [1] [] []
  dot_S4x2048x1024_S4096x1024_S4x2048x4096_2_1_01_0_n_n_wf : DotDims.WF S4x2048x1024 S4096x1024 S4x2048x4096 [2] [1] [0, 1] [0] [] []

variable [Facts₀]

def dot_S4x2048x4096_S4096x1024_S4x2048x1024_2_0_01_1_n_n : DotDims S4x2048x4096 S4096x1024 S4x2048x1024 where
  lhsContracting := [2]
  rhsContracting := [0]
  lhsNonContracting := [0, 1]
  rhsNonContracting := [1]
  lhsBatch := []
  rhsBatch := []
  wf := dot_S4x2048x4096_S4096x1024_S4x2048x1024_2_0_01_1_n_n_wf
def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf

class Facts : Prop extends Facts₀ where

variable [Facts]
-- ==== Proof.LowRank.lean ====
/-
  The low-rank affine map  y = ((x · Vt) ∘ s) · Uᵗ + b  as ONE function of its arrays, index by index, on the
  extended reals, in the two layouts the two programs use:

  * on ROWS: x is a matrix of 8192 rows, and  y[p, o] = Σ_r ((Σ_k x[p, k] · vt[k, r]) · s[0, r]) · ut[r, o] + b[0, o],
    with ut the TRANSPOSED left factor and s, b one-row matrices;
  * on BATCHES: x is 4 batches of 2048 rows, and
    y[a, t, o] = Σ_r ((Σ_k x[a, t, k] · vt[k, r]) · s[r]) · u[o, r] + b[o].

  Row p = a · 2048 + t of the first IS entry (a, t) of the second once each array of the first is the matching
  array of the second re-laid (a flattening, a transpose, a vector as a one-row matrix): the two sums are then the
  same sums term by term, so no law of the extended reals is used beyond rewriting each factor.
-/
import Idealize.ShloMosaic.PureOps.Ideal
import Idealize.ShloMosaic.Lib.ValueIdx

noncomputable section

open scoped BigOperators
open Idealize.ShloMosaic Idealize.ShloMosaic.ValueIdx

namespace Cert.LowRank

/-- Entry (p, o) of the map on rows: project row p onto the 1024 directions, scale direction r by s[0, r], expand by
    column o of the transposed left factor, add the bias of column o. -/
def rowEntry (x : (⟨2, ![8192, 4096]⟩ : Shape).Idx → EReal) (vt : (⟨2, ![4096, 1024]⟩ : Shape).Idx → EReal)
    (ut : (⟨2, ![1024, 4096]⟩ : Shape).Idx → EReal) (s : (⟨2, ![1, 1024]⟩ : Shape).Idx → EReal)
    (b : (⟨2, ![1, 4096]⟩ : Shape).Idx → EReal) (p : Fin 8192) (o : Fin 4096) : EReal :=
  (∑ r : Fin 1024, ((∑ k : Fin 4096, x (ix2 p k) * vt (ix2 k r)) * s (ix2 0 r)) * ut (ix2 r o)) + b (ix2 0 o)

/-- The map on rows, as a whole array. -/
def onRows (x : (⟨2, ![8192, 4096]⟩ : Shape).Idx → EReal) (vt : (⟨2, ![4096, 1024]⟩ : Shape).Idx → EReal)
    (ut : (⟨2, ![1024, 4096]⟩ : Shape).Idx → EReal) (s : (⟨2, ![1, 1024]⟩ : Shape).Idx → EReal)
    (b : (⟨2, ![1, 4096]⟩ : Shape).Idx → EReal) : (⟨2, ![8192, 4096]⟩ : Shape).Idx → EReal :=
  fun j => rowEntry x vt ut s b ⟨(j 0).val, (j 0).isLt⟩ ⟨(j 1).val, (j 1).isLt⟩

/-- Entry (a, t, o) of the map on batches. -/
def batchEntry (x : (⟨3, ![4, 2048, 4096]⟩ : Shape).Idx → EReal) (u : (⟨2, ![4096, 1024]⟩ : Shape).Idx → EReal)
    (s : (⟨1, ![1024]⟩ : Shape).Idx → EReal) (vt : (⟨2, ![4096, 1024]⟩ : Shape).Idx → EReal)
    (b : (⟨1, ![4096]⟩ : Shape).Idx → EReal) (a : Fin 4) (t : Fin 2048) (o : Fin 4096) : EReal :=
  (∑ r : Fin 1024, ((∑ k : Fin 4096, x (ix3 a t k) * vt (ix2 k r)) * s (ix1 r)) * u (ix2 o r)) + b (ix1 o)

/-- The map on batches, as a whole array. -/
def onBatches (x : (⟨3, ![4, 2048, 4096]⟩ : Shape).Idx → EReal) (u : (⟨2, ![4096, 1024]⟩ : Shape).Idx → EReal)
    (s : (⟨1, ![1024]⟩ : Shape).Idx → EReal) (vt : (⟨2, ![4096, 1024]⟩ : Shape).Idx → EReal)
    (b : (⟨1, ![4096]⟩ : Shape).Idx → EReal) : (⟨3, ![4, 2048, 4096]⟩ : Shape).Idx → EReal :=
  fun i => batchEntry x u s vt b ⟨(i 0).val, (i 0).isLt⟩ ⟨(i 1).val, (i 1).isLt⟩ ⟨(i 2).val, (i 2).isLt⟩

/-- Row a · 2048 + t of the map on rows is entry (a, t) of the map on batches, when the rows' arrays are the batches'
    re-laid: x flattened (hx), the right factor as it is (hvt), the left factor transposed (hu), the scale and the bias as one-row matrices (hs, hb). -/
theorem rowEntry_eq_batchEntry
    (x2 : (⟨2, ![8192, 4096]⟩ : Shape).Idx → EReal) (vt2 : (⟨2, ![4096, 1024]⟩ : Shape).Idx → EReal)
    (ut : (⟨2, ![1024, 4096]⟩ : Shape).Idx → EReal) (s2 : (⟨2, ![1, 1024]⟩ : Shape).Idx → EReal)
    (b2 : (⟨2, ![1, 4096]⟩ : Shape).Idx → EReal)
    (x : (⟨3, ![4, 2048, 4096]⟩ : Shape).Idx → EReal) (u : (⟨2, ![4096, 1024]⟩ : Shape).Idx → EReal)
    (s : (⟨1, ![1024]⟩ : Shape).Idx → EReal) (vt : (⟨2, ![4096, 1024]⟩ : Shape).Idx → EReal)
    (b : (⟨1, ![4096]⟩ : Shape).Idx → EReal)
    (a : Fin 4) (t : Fin 2048) (p : Fin 8192) (hp : p.val = a.val * 2048 + t.val)
    (hx : ∀ k : Fin 4096, x2 (ix2 p k) = x (ix3 a t k)) (hvt : vt2 = vt)
    (hu : ∀ (r : Fin 1024) (o : Fin 4096), ut (ix2 r o) = u (ix2 o r))
    (hs : ∀ r : Fin 1024, s2 (ix2 0 r) = s (ix1 r))
    (hb : ∀ o : Fin 4096, b2 (ix2 0 o) = b (ix1 o)) (o : Fin 4096) :
    rowEntry x2 vt2 ut s2 b2 p o = batchEntry x u s vt b a t o := by
  subst hvt
  unfold rowEntry batchEntry
  simp only [hx, hu, hs, hb]

end Cert.LowRank

end
-- ==== Proof.BlockValue.lean ====
/-
  What the kernel body computes on ONE block of 256 rows, read at an entry (p, o) of the block, on the extended reals:

      Σ_r ((Σ_k x[p, k] · vt[k, r]) · s[0, r]) · ut[r, o] + b[0, o].

  The body is two matrix products into zero accumulators with a scaling between them and a bias after: each product
  at an entry is the plain sum over its one contracted axis (the zero accumulator adds nothing), the one-row scale
  and bias are read at row 0 whatever the row of the entry, and the changes of float format between the steps are
  the identity on the extended reals.
-/
import proofs.«106842_j33303176413292_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The two products' operand indices, axis by axis

  Each product contracts axis 1 of its left operand with axis 0 of its right operand: the left operand is read at
  (row of the entry, contracted coordinate), the right at (contracted coordinate, column of the entry). -/

theorem project_lhs_0 (j : S256x1024.Idx) (q : dot_S256x4096_S4096x1024_S256x1024_1_0_0_1_n_n.contr.Idx) :
    (dot_S256x4096_S4096x1024_S256x1024_1_0_0_1_n_n.lhsIdx j q 0).val = (j 0).val := by
  unfold DotDims.lhsIdx
  rw [dif_neg (show ¬(0 : Fin S256x4096.rank) ∈ dot_S256x4096_S4096x1024_S256x1024_1_0_0_1_n_n.lhsBatch by decide), dif_pos (show (0 : Fin S256x4096.rank) ∈ dot_S256x4096_S4096x1024_S256x1024_1_0_0_1_n_n.lhsNonContracting by decide)]
  rfl
theorem project_lhs_1 (j : S256x1024.Idx) (q : dot_S256x4096_S4096x1024_S256x1024_1_0_0_1_n_n.contr.Idx) :
    (dot_S256x4096_S4096x1024_S256x1024_1_0_0_1_n_n.lhsIdx j q 1).val = (q ⟨0, by decide⟩).val :=
  dot_S256x4096_S4096x1024_S256x1024_1_0_0_1_n_n.lhsIdx_val_of_single rfl j q
theorem project_rhs_0 (j : S256x1024.Idx) (q : dot_S256x4096_S4096x1024_S256x1024_1_0_0_1_n_n.contr.Idx) :
    (dot_S256x4096_S4096x1024_S256x1024_1_0_0_1_n_n.rhsIdx j q 0).val = (q ⟨0, by decide⟩).val :=
  dot_S256x4096_S4096x1024_S256x1024_1_0_0_1_n_n.rhsIdx_val_of_single rfl j q
theorem project_rhs_1 (j : S256x1024.Idx) (q : dot_S256x4096_S4096x1024_S256x1024_1_0_0_1_n_n.contr.Idx) :
    (dot_S256x4096_S4096x1024_S256x1024_1_0_0_1_n_n.rhsIdx j q 1).val = (j 1).val := by
  unfold DotDims.rhsIdx
  rw [dif_neg (show ¬(1 : Fin S4096x1024.rank) ∈ dot_S256x4096_S4096x1024_S256x1024_1_0_0_1_n_n.rhsBatch by decide), dif_pos (show (1 : Fin S4096x1024.rank) ∈ dot_S256x4096_S4096x1024_S256x1024_1_0_0_1_n_n.rhsNonContracting by decide)]
  rfl

theorem expand_lhs_0 (j : S256x4096.Idx) (q : dot_S256x1024_S1024x4096_S256x4096_1_0_0_1_n_n.contr.Idx) :
    (dot_S256x1024_S1024x4096_S256x4096_1_0_0_1_n_n.lhsIdx j q 0).val = (j 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem expand_lhs_1 (j : S256x4096.Idx) (q : dot_S256x1024_S1024x4096_S256x4096_1_0_0_1_n_n.contr.Idx) :
    (dot_S256x1024_S1024x4096_S256x4096_1_0_0_1_n_n.lhsIdx j q 1).val = (q ⟨0, by decide⟩).val :=
  dot_S256x1024_S1024x4096_S256x4096_1_0_0_1_n_n.lhsIdx_val_of_single rfl j q
theorem expand_rhs_0 (j : S256x4096.Idx) (q : dot_S256x1024_S1024x4096_S256x4096_1_0_0_1_n_n.contr.Idx) :
    (dot_S256x1024_S1024x4096_S256x4096_1_0_0_1_n_n.rhsIdx j q 0).val = (q ⟨0, by decide⟩).val :=
  dot_S256x1024_S1024x4096_S256x4096_1_0_0_1_n_n.rhsIdx_val_of_single rfl j q
theorem expand_rhs_1 (j : S256x4096.Idx) (q : dot_S256x1024_S1024x4096_S256x4096_1_0_0_1_n_n.contr.Idx) :
    (dot_S256x1024_S1024x4096_S256x4096_1_0_0_1_n_n.rhsIdx j q 1).val = (j 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-! ## Each product at an entry is the sum over its contracted axis -/

/-- The projection of a block of rows onto the 1024 directions, at entry (p, c): Σ_k l[p, k] · r[k, c]. -/
theorem project_apply (l : FVec Ideal S256x4096 .bf16) (r : FVec Ideal S4096x1024 .bf16) (p : Fin 256) (c : Fin 1024) :
    FloatOps.matmul dot_S256x4096_S4096x1024_S256x1024_1_0_0_1_n_n none l r (constant S256x1024 .f32 0x00000000#32) (ix2 p c)
      = ∑ k : Fin 4096, l (ix2 p k) * r (ix2 k c) := by
  rw [Ideal.matmul_constant_zero_apply, ← Equiv.sum_comp (contrEquiv1 dot_S256x4096_S4096x1024_S256x1024_1_0_0_1_n_n 4096 rfl rfl).symm]
  refine Finset.sum_congr rfl fun k _ => ?_
  have hk := contrEquiv1_symm_val dot_S256x4096_S4096x1024_S256x1024_1_0_0_1_n_n 4096 rfl rfl k
  have el : dot_S256x4096_S4096x1024_S256x1024_1_0_0_1_n_n.lhsIdx (ix2 p c) ((contrEquiv1 dot_S256x4096_S4096x1024_S256x1024_1_0_0_1_n_n 4096 rfl rfl).symm k) = ix2 p k := funext fun a => Fin.ext (by
    match a with
    | ⟨0, _⟩ => exact project_lhs_0 _ _
    | ⟨1, _⟩ => exact (project_lhs_1 _ _).trans hk)
  have er : dot_S256x4096_S4096x1024_S256x1024_1_0_0_1_n_n.rhsIdx (ix2 p c) ((contrEquiv1 dot_S256x4096_S4096x1024_S256x1024_1_0_0_1_n_n 4096 rfl rfl).symm k) = ix2 k c := funext fun a => Fin.ext (by
    match a with
    | ⟨0, _⟩ => exact (project_rhs_0 _ _).trans hk
    | ⟨1, _⟩ => exact project_rhs_1 _ _)
  rw [el, er]

/-- The expansion back to 4096 columns, at entry (p, c): Σ_k l[p, k] · r[k, c]. -/
theorem expand_apply (l : FVec Ideal S256x1024 .bf16) (r : FVec Ideal S1024x4096 .bf16) (p : Fin 256) (c : Fin 4096) :
    FloatOps.matmul dot_S256x1024_S1024x4096_S256x4096_1_0_0_1_n_n none l r (constant S256x4096 .f32 0x00000000#32) (ix2 p c)
      = ∑ k : Fin 1024, l (ix2 p k) * r (ix2 k c) := by
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p c) ((contrEquiv1 dot_S256x1024_S1024x4096_S256x4096_1_0_0_1_n_n 1024 rfl rfl).symm k) = ix2 p k := funext fun a => Fin.ext (by
    match a with
    | ⟨0, _⟩ => exact expand_lhs_0 _ _
    | ⟨1, _⟩ => exact (expand_lhs_1 _ _).trans hk)
  have er : dot_S256x1024_S1024x4096_S256x4096_1_0_0_1_n_n.rhsIdx (ix2 p c) ((contrEquiv1 dot_S256x1024_S1024x4096_S256x4096_1_0_0_1_n_n 1024 rfl rfl).symm k) = ix2 k c := funext fun a => Fin.ext (by
    match a with
    | ⟨0, _⟩ => exact (expand_rhs_0 _ _).trans hk
    | ⟨1, _⟩ => exact expand_rhs_1 _ _)
  rw [el, er]

/-! ## The one-row operands, broadcast down the rows of the block -/

/-- The scale, a one-row matrix broadcast to 256 rows, reads row 0 at every row. -/
theorem scaleRow_apply (s : FVec Ideal S1x1024 .f32) (p : Fin 256) (r : Fin 1024) :
    broadcastTo S256x1024 s broadcasts_S1x1024_S256x1024 (ix2 p r) = s (ix2 0 r) :=
  broadcastTo_apply s broadcasts_S1x1024_S256x1024 (ix2 p r) (ix2 0 r) (fun a => match a with
    | ⟨0, _⟩ => by show (0 : Nat) = if (1 : Nat) = 1 then 0 else p.val; rw [if_pos rfl]
    | ⟨1, _⟩ => by show r.val = if (1024 : Nat) = 1 then 0 else r.val; rw [if_neg (by decide)])

/-- The bias, a one-row matrix broadcast to 256 rows, reads row 0 at every row. -/
theorem biasRow_apply (b : FVec Ideal S1x4096 .f32) (p : Fin 256) (o : Fin 4096) :
    broadcastTo S256x4096 b broadcasts_S1x4096_S256x4096 (ix2 p o) = b (ix2 0 o) :=
  broadcastTo_apply b broadcasts_S1x4096_S256x4096 (ix2 p o) (ix2 0 o) (fun a => match a with
    | ⟨0, _⟩ => by show (0 : Nat) = if (1 : Nat) = 1 then 0 else p.val; rw [if_pos rfl]
    | ⟨1, _⟩ => by show o.val = if (4096 : Nat) = 1 then 0 else o.val; rw [if_neg (by decide)])

/-! ## The body's one stored value at an entry -/

/-- Entry (p, o) of what the body stores, from the five blocks it loads: the block of rows x, the right factor vt,
    the scale s, the transposed left factor ut and the bias b. The rounding of the scaled projection to a narrower
    float format before the second product is the identity on the extended reals. -/
theorem stored_apply (x : Vec Ideal S256x4096 .bf16) (vt : Vec Ideal S4096x1024 .bf16) (s : Vec Ideal S1x1024 .f32)
    (ut : Vec Ideal S1024x4096 .bf16) (b : Vec Ideal S1x4096 .f32) (p : Fin 256) (o : Fin 4096) :
    k0_pay1 (F := Ideal) x vt s ut b (ix2 p o)
      = (∑ r : Fin 1024, ((∑ k : Fin 4096, x (ix2 p k) * vt (ix2 k r)) * s (ix2 0 r)) * ut (ix2 r o)) + b (ix2 0 o) := by
  unfold k0_pay1
  simp only [shapeCast_self, matmul]
  rw [addf_apply, expand_apply, biasRow_apply]
  congr 1
  refine Finset.sum_congr rfl fun r _ => ?_
  rw [truncf_apply, mulf_apply, project_apply, scaleRow_apply]

end Cert.KernelIdeal.BlockValue

end
-- ==== Proof.KernelValue.lean ====
/-
  What the kernel's result holds after the run, on the extended reals: the low-rank affine map of the five
  arguments, entry by entry (`LowRank.onBatches`).

  The program flattens x to 8192 rows, transposes the left factor, lays the scale and the bias out as one-row
  matrices, runs the body on 32 blocks of 256 rows, and folds the 8192 result rows back into 4 batches of 2048.
  Block t of the result depends on rows t · 256 … t · 256 + 255 of x and on the whole of the other four arrays, which
  every grid point reads at block (0, 0). So:
    * what point t writes back is block t of ONE whole-array function of the arrays the region finds
      (`flushed_eq`: the body's stored value at an entry, with row p of the block being row t · 256 + p of x);
    * the 32 blocks tile the 8192 rows (row r lies in block r / 256), so the result array ends holding that
      function everywhere (`rows_final`);
    * the arrays the region finds are the arguments re-laid, and the result is the rows re-laid, so entry (a, s, o)
      of the result is row a · 2048 + s of the map on rows, which is the map on batches at (a, s, o) (`result_eq`).
-/
import proofs.«106842_j33303176413292_1_alg».proof.Proof.Gen.KernelIdeal.Frame
import proofs.«106842_j33303176413292_1_alg».proof.Proof.LowRank
import proofs.«106842_j33303176413292_1_alg».proof.Proof.BlockValue
import Idealize.ShloMosaic.Lib.Pipeline.Value
import Idealize.ShloMosaic.Lib.ValueIdx
import Idealize.ShloMosaic.Lib.StableHlo.Run

set_option maxRecDepth 16384

noncomputable section

namespace Cert.KernelIdeal.RowsValue

open Cert.KernelIdeal Cert.KernelIdeal.Gen Idealize.ShloMosaic Idealize.ShloMosaic.TcCoe Idealize.ShloMosaic.ValueIdx
open Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-! ## The five arrays the region finds, and the function of them the result array ends holding -/

/-- x as 8192 rows. -/
abbrev xRows (c : Dev nD) : Vec Ideal S8192x4096 .bf16 := V m c main_v1
/-- The right factor. -/
abbrev vtArr (c : Dev nD) : Vec Ideal S4096x1024 .bf16 := V m c main_v2
/-- The left factor, transposed. -/
abbrev utArr (c : Dev nD) : Vec Ideal S1024x4096 .bf16 := V m c main_v4
/-- The scale as a one-row matrix. -/
abbrev sRow (c : Dev nD) : Vec Ideal S1x1024 .f32 := V m c main_v5
/-- The bias as a one-row matrix. -/
abbrev bRow (c : Dev nD) : Vec Ideal S1x4096 .f32 := V m c main_v6

/-- The low-rank affine map of those five arrays, on rows. -/
abbrev rows (c : Dev nD) : Vec Ideal S8192x4096 .f32 :=
  LowRank.onRows (xRows m c) (vtArr m c) (utArr m c) (sRow m c) (bRow m c)

/-! ## Which block each window reads at a point -/

theorem hz : (![0, 0] : Fin 2 → Nat) = fun _ => 0 := funext fun a => by fin_cases a <;> rfl

/-- The index maps over the grid: the rows of x and of the result move with the point, block t at point t; the
    other four windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 32 := lt_of_lt_of_eq t.isLt N_0

/-- Row p of the block of x at point t is row t · 256 + p of x. -/
theorem xBlock_apply (c : Dev nD) (t : Fin cfg0.N) (p : Fin 256) (R : Fin 8192) (hR : R.val = t.val * 256 + p.val)
    (k : Fin 4096) : iblk m c 0 t (ix2 p k) = xRows m c (ix2 R k) := by
  show V m c main_v1 (((cfg0.win 0).blk t).view.emb (ix2 p k)) = V m c main_v1 (ix2 R k)
  refine congrArg _ (funext fun a => Fin.ext ?_)
  obtain ⟨e0, e1, -⟩ := idx_facts t
  match a with
  | ⟨0, _⟩ => show win0_0.index t (0 : Fin 2) * 256 + 1 * p.val = R.val; omega
  | ⟨1, _⟩ => show win0_0.index t (1 : Fin 2) * 4096 + 1 * k.val = k.val; omega

/-- The block of the right factor at any point is the whole right factor. -/
theorem vtBlock_eq (c : Dev nD) (t : Fin cfg0.N) : (iblk m c 1 t : Vec Ideal S4096x1024 .bf16) = vtArr m c := by
  funext y
  show V m c main_v2 (((cfg0.win 1).blk t).view.emb y) = V m c main_v2 y
  refine congrArg _ (funext fun a => Fin.ext ?_)
  obtain ⟨-, -, e0, e1, -⟩ := idx_facts t
  match a with
  | ⟨0, _⟩ => show win0_1.index t (0 : Fin 2) * 4096 + 1 * (y 0).val = (y 0).val; omega
  | ⟨1, _⟩ => show win0_1.index t (1 : Fin 2) * 1024 + 1 * (y 1).val = (y 1).val; omega

/-- The block of the transposed left factor at any point is the whole of it. -/
theorem utBlock_eq (c : Dev nD) (t : Fin cfg0.N) : (iblk m c 2 t : Vec Ideal S1024x4096 .bf16) = utArr m c := by
  funext y
  show V m c main_v4 (((cfg0.win 2).blk t).view.emb y) = V m c main_v4 y
  refine congrArg _ (funext fun a => Fin.ext ?_)
  obtain ⟨-, -, -, -, e0, e1, -⟩ := idx_facts t
  match a with
  | ⟨0, _⟩ => show win0_2.index t (0 : Fin 2) * 1024 + 1 * (y 0).val = (y 0).val; omega
  | ⟨1, _⟩ => show win0_2.index t (1 : Fin 2) * 4096 + 1 * (y 1).val = (y 1).val; omega

/-- The block of the scale at any point is the whole row. -/
theorem sBlock_eq (c : Dev nD) (t : Fin cfg0.N) : (iblk m c 3 t : Vec Ideal S1x1024 .f32) = sRow m c := by
  funext y
  show V m c main_v5 (((cfg0.win 3).blk t).view.emb y) = V m c main_v5 y
  refine congrArg _ (funext fun a => Fin.ext ?_)
  obtain ⟨-, -, -, -, -, -, e0, e1, -⟩ := idx_facts t
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- The block of the bias at any point is the whole row. -/
theorem bBlock_eq (c : Dev nD) (t : Fin cfg0.N) : (iblk m c 4 t : Vec Ideal S1x4096 .f32) = bRow m c := by
  funext y
  show V m c main_v6 (((cfg0.win 4).blk t).view.emb y) = V m c main_v6 y
  refine congrArg _ (funext fun a => Fin.ext ?_)
  obtain ⟨-, -, -, -, -, -, -, -, e0, e1, -⟩ := idx_facts t
  match a with
  | ⟨0, _⟩ => show win0_4.index t (0 : Fin 2) * 1 + 1 * (y 0).val = (y 0).val; omega
  | ⟨1, _⟩ => show win0_4.index t (1 : Fin 2) * 4096 + 1 * (y 1).val = (y 1).val; omega

/-! ## What a point writes back -/

/-- The body's stored value at entry (p, o) of a block is entry (R, o) of the map on rows, when row p of the block of
    x is row R of x and the other four blocks are the whole arrays. -/
theorem block_entry (X : Vec Ideal S8192x4096 .bf16) (VT : Vec Ideal S4096x1024 .bf16) (UT : Vec Ideal S1024x4096 .bf16)
    (S : Vec Ideal S1x1024 .f32) (B : Vec Ideal S1x4096 .f32) (xb : Vec Ideal S256x4096 .bf16)
    (R : Fin 8192) (p : Fin 256) (hx : ∀ k : Fin 4096, xb (ix2 p k) = X (ix2 R k)) (o : Fin 4096) :
    k0_pay1 (F := Ideal) xb VT S UT B (ix2 p o) = LowRank.rowEntry X VT UT S B R o := by
  rw [BlockValue.stored_apply]
  unfold LowRank.rowEntry
  simp only [hx]

/-- WHAT POINT t WRITES BACK is block t of the map on rows of the arrays the region finds. -/
theorem flushed_eq (c : Dev nD) (t : Fin cfg0.N) :
    (dats m 0 c).flushed 5 t = ((cfg0.win 5).blk t).view.read (Elt Ideal) (rows m c) := by
  show (cfg0.win 5).cut (grid0.coords t) ((dats m 0 c).after 5 t) = _
  rw [after0_5]
  unfold out0_5
  rw [View.canon_unit_zero hz]
  simp only [View.ld_unit_zero (S := S256x4096) hz, View.ld_unit_zero (S := S4096x1024) hz,
    View.ld_unit_zero (S := S1024x4096) hz, View.ld_unit_zero (S := S1x1024) hz, View.ld_unit_zero (S := S1x4096) hz]
  rw [vtBlock_eq, utBlock_eq, sBlock_eq, bBlock_eq]
  funext j
  have ht := point_lt t
  have hj0 : (j 0).val < 256 := (j 0).isLt
  have hj1 : (j 1).val < 4096 := (j 1).isLt
  have hemb : ((cfg0.win 5).blk t).view.emb j = ix2 (⟨t.val * 256 + (j 0).val, by omega⟩ : Fin 8192) (⟨(j 1).val, hj1⟩ : Fin 4096) := by
    funext a; apply Fin.ext
    obtain ⟨-, -, -, -, -, -, -, -, -, -, e0, e1⟩ := idx_facts t
    match a with
    | ⟨0, _⟩ => show win0_5.index t (0 : Fin 2) * 256 + 1 * (j 0).val = t.val * 256 + (j 0).val; omega
    | ⟨1, _⟩ => show win0_5.index t (1 : Fin 2) * 4096 + 1 * (j 1).val = (j 1).val; omega
  show k0_pay1 (F := Ideal) (iblk m c 0 t) (vtArr m c) (sRow m c) (utArr m c) (bRow m c) j
    = rows m c (((cfg0.win 5).blk t).view.emb j)
  rw [hemb]
  exact (congrArg (k0_pay1 (F := Ideal) (iblk m c 0 t) (vtArr m c) (sRow m c) (utArr m c) (bRow m c)) (eq_ix2 (n0 := 256) (n1 := 4096) j)).trans
    (block_entry (xRows m c) (vtArr m c) (utArr m c) (sRow m c) (bRow m c) (iblk m c 0 t) ⟨t.val * 256 + (j 0).val, by omega⟩ ⟨(j 0).val, hj0⟩
      (fun k => xBlock_apply m c t ⟨(j 0).val, hj0⟩ ⟨t.val * 256 + (j 0).val, by omega⟩ rfl k) ⟨(j 1).val, hj1⟩)

/-! ## The blocks tile the rows -/

/-- An entry of the result array is in point t's block iff each coordinate is in the block's range on its axis. -/
theorem mem_blk (t : Fin cfg0.N) (i : S8192x4096.Idx) :
    i ∈ ((cfg0.win 5).blk t).view.set ↔ ∀ a : Fin 2, win0_5.index t a * S256x4096.size a ≤ (i a).val ∧ (i a).val < win0_5.index t a * S256x4096.size a + S256x4096.size a := by
  show i ∈ ((View.whole main_v7).slice (win0_5.rect t)).set ↔ _
  rw [View.set_slice_whole, Rect.mem_set_unit]
  exact Iff.rfl

/-- Row r lies in the block of point r / 256. -/
theorem covered (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have hN : (i 0).val / 256 < cfg0.N := by rw [show cfg0.N = 32 from N_0]; omega
  refine ⟨⟨(i 0).val / 256, hN⟩, flush0_5 _, ?_⟩
  rw [mem_blk]
  obtain ⟨-, -, -, -, -, -, -, -, -, -, e0, e1⟩ := idx_facts ⟨(i 0).val / 256, hN⟩
  have e0' : win0_5.index ⟨(i 0).val / 256, hN⟩ (0 : Fin 2) = (i 0).val / 256 := e0
  intro a
  match a with
  | ⟨0, _⟩ => show win0_5.index ⟨(i 0).val / 256, hN⟩ (0 : Fin 2) * 256 ≤ (i 0).val ∧ (i 0).val < win0_5.index ⟨(i 0).val / 256, hN⟩ (0 : Fin 2) * 256 + 256; omega
  | ⟨1, _⟩ => show win0_5.index ⟨(i 0).val / 256, hN⟩ (1 : Fin 2) * 4096 ≤ (i 1).val ∧ (i 1).val < win0_5.index ⟨(i 0).val / 256, hN⟩ (1 : Fin 2) * 4096 + 4096; omega

/-- THE RESULT ARRAY after the region: the map on rows of the arrays the region finds. -/
theorem rows_final (c : Dev nD) : (dats m 0 c).arrAt 5 cfg0.N = rows m c :=
  (dats m 0 c).arrAt_eq_of_cover 5 (rows m c) (fun t _ => flushed_eq m c t) covered

/-! ## The arrays the region finds are the arguments re-laid -/

/-- The five arguments, at their shapes. -/
abbrev xArg (c : Dev nD) : Vec Ideal S4x2048x4096 .f32 := m ((c.tc : Thread nD τ).loc main_arg0)
abbrev uArg (c : Dev nD) : Vec Ideal S4096x1024 .f32 := m ((c.tc : Thread nD τ).loc main_arg1)
abbrev sArg (c : Dev nD) : Vec Ideal S1024 .f32 := m ((c.tc : Thread nD τ).loc main_arg2)
abbrev vtArg (c : Dev nD) : Vec Ideal S4096x1024 .f32 := m ((c.tc : Thread nD τ).loc main_arg3)
abbrev bArg (c : Dev nD) : Vec Ideal S4096 .f32 := m ((c.tc : Thread nD τ).loc main_arg4)

/-- x flattened: row a · 2048 + s is row s of batch a (the two entries have one row-major position; the change of
    float format after the flattening is the identity). -/
theorem xRows_apply (c : Dev nD) (a : Fin 4) (s : Fin 2048) (R : Fin 8192) (hR : R.val = a.val * 2048 + s.val)
    (k : Fin 4096) : xRows m c (ix2 R k) = xArg m c (ix3 a s k) := by
  have e : xRows m c = truncf (F := Ideal) .bf16 (shapeCast S8192x4096 (xArg m c) shapeCasts_S4x2048x4096_S8192x4096) bitsLt_bf16_f32 := by
    show StableHlo.after hostOps0 (fun b => m (c, b)) (Proc.devRef .tc main_v1) = _
    after_results; rfl
  rw [e, truncf_apply]
  refine shapeCast_apply _ _ _ _ ?_
  rw [Shape.rowMajor_val_three, Shape.rowMajor_val_two]
  show (a.val * 2048 + s.val) * 4096 + k.val = R.val * 4096 + k.val
  rw [hR]

/-- The right factor is found as given. -/
theorem vtArr_eq (c : Dev nD) : vtArr m c = vtArg m c := by
  show StableHlo.after hostOps0 (fun b => m (c, b)) (Proc.devRef .tc main_v2) = _
  after_results; rfl

/-- The left factor is found transposed. -/
theorem utArr_apply (c : Dev nD) (r : Fin 1024) (o : Fin 4096) : utArr m c (ix2 r o) = uArg m c (ix2 o r) := by
  have e : utArr m c = truncf (F := Ideal) .bf16 (transpose S1024x4096 [1, 0] (uArg m c) transposes_S4096x1024_S1024x4096_1_0) bitsLt_bf16_f32 := by
    show StableHlo.after hostOps0 (fun b => m (c, b)) (Proc.devRef .tc main_v4) = _
    after_results
  rw [e, truncf_apply]
  exact transpose_apply _ _ _ _ _ (fun b => match b with | ⟨0, _⟩ => rfl | ⟨1, _⟩ => rfl)

/-- The scale is found as a one-row matrix. -/
theorem sRow_apply (c : Dev nD) (r : Fin 1024) : sRow m c (ix2 0 r) = sArg m c (ix1 r) := by
  have e : sRow m c = shapeCast S1x1024 (sArg m c) shapeCasts_S1024_S1x1024 := by
    show StableHlo.after hostOps0 (fun b => m (c, b)) (Proc.devRef .tc main_v5) = _
    after_results; rfl
  rw [e]
  refine shapeCast_apply _ _ _ _ ?_
  rw [Shape.rowMajor_val_one, Shape.rowMajor_val_two]
  show r.val = 0 * 1024 + r.val
  omega

/-- The bias is found as a one-row matrix. -/
theorem bRow_apply (c : Dev nD) (o : Fin 4096) : bRow m c (ix2 0 o) = bArg m c (ix1 o) := by
  have e : bRow m c = shapeCast S1x4096 (bArg m c) shapeCasts_S4096_S1x4096 := by
    show StableHlo.after hostOps0 (fun b => m (c, b)) (Proc.devRef .tc main_v6) = _
    after_results; rfl
  rw [e]
  refine shapeCast_apply _ _ _ _ ?_
  rw [Shape.rowMajor_val_one, Shape.rowMajor_val_two]
  show o.val = 0 * 4096 + o.val
  omega

/-! ## The result: the rows folded back into batches -/

/-- THE RESULT after the run is the low-rank affine map of the five arguments, on batches: entry (a, s, o) is entry
    (a · 2048 + s, o) of the result array (one row-major position), which is the map on rows there, which is the map
    on batches at (a, s, o) since the arrays the region finds are the arguments re-laid. -/
theorem result_eq (c : Dev nD) :
    Pipeline.afterTail₀ cfgs (dats m) 0 (V0 m) [hostOps1] c main_v8
      = LowRank.onBatches (xArg m c) (uArg m c) (sArg m c) (vtArg m c) (bArg m c) := by
  have e : Pipeline.afterTail₀ cfgs (dats m) 0 (V0 m) [hostOps1] c main_v8
      = shapeCast S4x2048x4096 (rows m c) shapeCasts_S8192x4096_S4x2048x4096 := by
    unfold Pipeline.afterTail₀
    show StableHlo.after hostOps1 _ (Proc.devRef .tc main_v8) = _
    after_results
    rw [(Pipeline.withArrays_arr spec0 launch0.win.arr_inj c _ _ 5).trans (rows_final m c)]
    rfl
  rw [e]
  funext i
  have hi0 : (i 0).val < 4 := (i 0).isLt
  have hi1 : (i 1).val < 2048 := (i 1).isLt
  have hi2 : (i 2).val < 4096 := (i 2).isLt
  have hR : (i 0).val * 2048 + (i 1).val < 8192 := by omega
  refine (shapeCast_apply (rows m c) shapeCasts_S8192x4096_S4x2048x4096 i
    (ix2 (⟨(i 0).val * 2048 + (i 1).val, hR⟩ : Fin 8192) (⟨(i 2).val, hi2⟩ : Fin 4096)) ?_).trans ?_
  · rw [Shape.rowMajor_val_two, Shape.rowMajor_val_three]
    rfl
  · exact LowRank.rowEntry_eq_batchEntry (xRows m c) (vtArr m c) (utArr m c) (sRow m c) (bRow m c)
      (xArg m c) (uArg m c) (sArg m c) (vtArg m c) (bArg m c) ⟨(i 0).val, hi0⟩ ⟨(i 1).val, hi1⟩
      ⟨(i 0).val * 2048 + (i 1).val, hR⟩ rfl
      (fun k => xRows_apply m c ⟨(i 0).val, hi0⟩ ⟨(i 1).val, hi1⟩ ⟨(i 0).val * 2048 + (i 1).val, hR⟩ rfl k)
      (vtArr_eq m c) (utArr_apply m c) (sRow_apply m c) (bRow_apply m c) ⟨(i 2).val, hi2⟩

/-! ## The run -/

/-- Every weakly fair execution of the program terminates, nothing faulting, with its result at the low-rank affine
    map of its five arguments and the arguments unchanged. -/
theorem run : θ_run defs (onTc (τ := τ) (main (F := Ideal))) ⟨m, fun _ => 0, ρ⟩ fun r => ∀ c : Dev nD,
      r.2.mem ((c.tc : Thread nD τ).loc main_v8) = LowRank.onBatches (xArg m c) (uArg m c) (sArg m c) (vtArg m c) (bArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨((h c).2 main_v8 (Pipeline.mem_restRefs_of main_v8 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.RowsValue

end
-- ==== Proof.RefValue.lean ====
/-
  What the reference computes, on the extended reals: the low-rank affine map of the five arguments on batches
  (`LowRank.onBatches`), entry by entry.

  The reference is eight operations: a contraction of x with the right factor over the 4096 input features, the scale
  broadcast along the batch and row axes and multiplied in, a contraction with the left factor over the 1024
  directions (the left factor read at (column, direction): its second axis is the contracted one), and the bias
  broadcast and added. Read at an entry (a, s, o), operation by operation, this is the specification's sum; what is
  left is that each operand is read at the entry the specification names.
-/
import proofs.«106842_j33303176413292_1_alg».proof.Proof.Gen.ReferenceIdeal.Read
import proofs.«106842_j33303176413292_1_alg».proof.Proof.LowRank

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Where each operand is read, for the result's entry i and the summed coordinates r (a direction) and k (an input feature) -/

/-- x is read at (batch of i, row of i, k). -/
theorem at_x (i : S4x2048x4096.Idx) (r : Fin 1024) (k : Fin 4096) :
    lidx_main_v0 (lidx_main_v4 i r) k = ix3 (⟨(i 0).val, (i 0).isLt⟩ : Fin 4) (⟨(i 1).val, (i 1).isLt⟩ : Fin 2048) k :=
  funext fun a => Fin.ext (by match a with | ⟨0, _⟩ => rfl | ⟨1, _⟩ => rfl | ⟨2, _⟩ => rfl)
/-- The right factor is read at (k, r). -/
theorem at_vt (i : S4x2048x4096.Idx) (r : Fin 1024) (k : Fin 4096) :
    ridx_main_v0 (lidx_main_v4 i r) k = ix2 k r :=
  funext fun a => Fin.ext (by match a with | ⟨0, _⟩ => rfl | ⟨1, _⟩ => rfl)
/-- The scale is read at r. -/
theorem at_s (i : S4x2048x4096.Idx) (r : Fin 1024) :
    idx_main_v1 (idx_main_v2 (lidx_main_v4 i r)) = ix1 r :=
  funext fun a => Fin.ext (by match a with | ⟨0, _⟩ => rfl)
/-- The left factor is read at (column of i, r). -/
theorem at_u (i : S4x2048x4096.Idx) (r : Fin 1024) :
    ridx_main_v4 i r = ix2 (⟨(i 2).val, (i 2).isLt⟩ : Fin 4096) r :=
  funext fun a => Fin.ext (by match a with | ⟨0, _⟩ => rfl | ⟨1, _⟩ => rfl)
/-- The bias is read at the column of i. -/
theorem at_b (i : S4x2048x4096.Idx) :
    idx_main_v5 (idx_main_v6 i) = ix1 (⟨(i 2).val, (i 2).isLt⟩ : Fin 4096) :=
  funext fun a => Fin.ext (by match a with | ⟨0, _⟩ => rfl)

/-! ## The reference's result is the specification -/

/-- The reference's last stage, as a function of the five arguments, is the low-rank affine map on batches. -/
theorem result_eq (x0 : Vec Ideal S4x2048x4096 .f32) (x1 : Vec Ideal S4096x1024 .f32) (x2 : Vec Ideal S1024 .f32)
    (x3 : Vec Ideal S4096x1024 .f32) (x4 : Vec Ideal S4096 .f32) :
    val_main_v7 (F := Ideal) x0 x1 x2 x3 x4 = LowRank.onBatches x0 x1 x2 x3 x4 := by
  funext i
  rw [val_main_v7_apply, val_main_v4_apply, val_main_v6_apply, val_main_v5_apply]
  show _ = LowRank.batchEntry x0 x1 x2 x3 x4 ⟨(i 0).val, (i 0).isLt⟩ ⟨(i 1).val, (i 1).isLt⟩ ⟨(i 2).val, (i 2).isLt⟩
  unfold LowRank.batchEntry
  simp only [val_main_v3_apply, val_main_v0_apply, val_main_v2_apply, val_main_v1_apply, Ideal.addf_def, Ideal.mulf_def,
    at_x, at_vt, at_s, at_u, at_b]

end Cert.ReferenceIdeal.RefValue

end
-- ==== Proof.lean ====
/-
  A linear layer whose weight is kept as a rank-1024 factorisation: for x of 4 batches of 2048 rows of 4096 features,

      y[a, s, o] = Σ_r ((Σ_k x[a, s, k] · Vt[k, r]) · S[r]) · U[o, r] + bias[o].

  The reference computes this by two contractions on the batched array. The kernel flattens x to 8192 rows, transposes
  U, and on each of 32 blocks of 256 rows does two matrix products into zero accumulators with the scaling between them
  and the bias after, rounding its operands and the scaled projection to a narrower float format on the way; the
  result rows are folded back into batches.

  On the extended reals the roundings are the identity and a product into a zero accumulator is the plain sum, so both
  programs compute the SAME sums, term by term: the kernel's entry (p, o) of block t is the formula above at row
  t · 256 + p (Proof/BlockValue.lean, Proof/KernelValue.lean), the blocks tile the rows, and row a · 2048 + s of the
  flattened array is row s of batch a (Proof/LowRank.lean). No law of the extended reals beyond rewriting each factor
  is used, so the inputs' finiteness is never opened.

  * The two kernel programs' frames are the generated frames of their one region.
  * The reference's frame is its generated run with the result dropped.
  * The idealization rewrote no operation, so there is nothing to preserve.
  * Both runs end with the result at `LowRank.onBatches` of the (agreeing) arguments: the kernel's by
    `KernelIdeal.RowsValue.run`, the reference's by its generated run read stage by stage (Proof/RefValue.lean).
-/
import proofs.«106842_j33303176413292_1_alg».proof.Defs
import proofs.«106842_j33303176413292_1_alg».proof.Proof.Gen.Kernel
import proofs.«106842_j33303176413292_1_alg».proof.Proof.Gen.Kernel.Frame
import proofs.«106842_j33303176413292_1_alg».proof.Proof.Gen.KernelIdeal
import proofs.«106842_j33303176413292_1_alg».proof.Proof.Gen.KernelIdeal.Frame
import proofs.«106842_j33303176413292_1_alg».proof.Proof.Gen.ReferenceIdeal
import proofs.«106842_j33303176413292_1_alg».proof.Proof.Gen.Pre_finite_inputs
import proofs.«106842_j33303176413292_1_alg».proof.Proof.Gen.ReferenceIdeal.Run
import proofs.«106842_j33303176413292_1_alg».proof.Proof.Gen.ReferenceIdeal.Read
import proofs.«106842_j33303176413292_1_alg».proof.Proof.LowRank
import proofs.«106842_j33303176413292_1_alg».proof.Proof.KernelValue
import proofs.«106842_j33303176413292_1_alg».proof.Proof.RefValue

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the result at the low-rank affine map of the arguments. -/
theorem algebraic : Cert.algebraic_KernelIdeal_ReferenceIdeal := by
  intro m ρ m' ρ' _ hagree
  refine ⟨fun c => LowRank.onBatches (Cert.KernelIdeal.RowsValue.xArg m c) (Cert.KernelIdeal.RowsValue.uArg m c)
      (Cert.KernelIdeal.RowsValue.sArg m c) (Cert.KernelIdeal.RowsValue.vtArg m c) (Cert.KernelIdeal.RowsValue.bArg m c),
    Cert.KernelIdeal.RowsValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
